-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S512 .f32) (main_arg6 : FVec F S1x512 .f32) (main_arg7 : FVec F S1x512 .f32) (main_arg8 : FVec F S256x512 .f32) (main_arg9 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg6
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg7
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg8 main_arg9 main_v33

def fn {F : FTy → Type} [FloatOps F] (main_arg0 : FVec F S262144x256 .f32) (main_arg1 : IVec S128 32) (main_arg2 : FVec F S1x256 .f32) (main_arg3 : FVec F S1x256 .f32) (main_arg4 : FVec F S512x256 .f32) (main_arg5 : FVec F S512 .f32) (main_arg6 : FVec F S1x512 .f32) (main_arg7 : FVec F S1x512 .f32) (main_arg8 : FVec F S256x512 .f32) (main_arg9 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S2048x256 : Shape := ⟨2, ![2048, 256]⟩
abbrev S2048 : Shape := ⟨1, ![2048]⟩
abbrev S2048x1 : Shape := ⟨2, ![2048, 1]⟩
abbrev S2048x512 : Shape := ⟨2, ![2048, 512]⟩

abbrev nBuf : Space → Nat
  | .hbm => 15
  | .vmem => 12
  | .smem => 0
  | _ => 0

abbrev bufTy : (tb : Table) → Fin (tcTables nBuf tb) → BufTy
  | .hbm, ⟨0, _⟩ => ⟨S262144x256, .f32⟩
  | .hbm, ⟨1, _⟩ => ⟨S128, .i32⟩
  | .hbm, ⟨2, _⟩ => ⟨S1x256, .f32⟩
  | .hbm, ⟨3, _⟩ => ⟨S1x256, .f32⟩
  | .hbm, ⟨4, _⟩ => ⟨S512x256, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S256x512, .f32⟩
  | .hbm, ⟨9, _⟩ => ⟨S256, .f32⟩
  | .hbm, ⟨10, _⟩ => ⟨S512x256, .bf16⟩
  | .hbm, ⟨11, _⟩ => ⟨S256x512, .bf16⟩
  | .hbm, ⟨12, _⟩ => ⟨S1x512, .f32⟩
  | .hbm, ⟨13, _⟩ => ⟨S1x256, .f32⟩
  | .hbm, ⟨14, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S512x256, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  broadcasts_S2048x1_S2048x512 : S2048x1.Broadcasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  shapeCasts_S1x256_S1x256 : S1x256.ShapeCasts S1x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S262144x256.size a
  hwx0_9 : ∀ i : grid0.Coords, EltTy.bits .f32 = 32 ∨ (Rect.block (s := S262144x256) S2048x256.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S_ : Shape := ⟨0, ![]⟩
abbrev S262144 : Shape := ⟨1, ![262144]⟩
abbrev S262144x1 : Shape := ⟨2, ![262144, 1]⟩
abbrev S262144x512 : Shape := ⟨2, ![262144, 512]⟩

abbrev nBuf : Space → Nat
  | .hbm => 91
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S128, .i32⟩
  | .hbm, ⟨2, _⟩ => ⟨S1x256, .f32⟩
  | .hbm, ⟨3, _⟩ => ⟨S1x256, .f32⟩
  | .hbm, ⟨4, _⟩ => ⟨S512x256, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S256x512, .f32⟩
  | .hbm, ⟨9, _⟩ => ⟨S256, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S_, .f32⟩
  | .hbm, ⟨14, _⟩ => ⟨S262144x1, .f32⟩
  | .hbm, ⟨15, _⟩ => ⟨S262144x1, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144, .f32⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144x1, .f32⟩
  | .hbm, ⟨29, _⟩ => ⟨S262144x1, .f32⟩
  | .hbm, ⟨30, _⟩ => ⟨S262144x1, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S_, .f32⟩
  | .hbm, ⟨38, _⟩ => ⟨S_, .f32⟩
  | .hbm, ⟨39, _⟩ => ⟨S262144x256, .f32⟩
  | .hbm, ⟨40, _⟩ => ⟨S262144x256, .i1⟩
  | .hbm, ⟨41, _⟩ => ⟨S_, .f32⟩
  | .hbm, ⟨42, _⟩ => ⟨S262144x256, .f32⟩
  | .hbm, ⟨43, _⟩ => ⟨S262144x256, .f32⟩
  | .hbm, ⟨44, _⟩ => ⟨S262144x256, .f32⟩
  | .hbm, ⟨45, _⟩ => ⟨S256x512, .f32⟩
  | .hbm, ⟨46, _⟩ => ⟨S262144x512, .f32⟩
  | .hbm, ⟨47, _⟩ => ⟨S1x512, .f32⟩
  | .hbm, ⟨48, _⟩ => ⟨S262144x512, .f32⟩
  | .hbm, ⟨49, _⟩ => ⟨S262144x512, .f32⟩
  | .hbm, ⟨50, _⟩ => ⟨S_, .f32⟩
  | .hbm, ⟨51, _⟩ => ⟨S262144, .f32⟩
  | .hbm, ⟨52, _⟩ => ⟨S262144x1, .f32⟩
  | .hbm, ⟨53, _⟩ => ⟨S_, .f32⟩
  | .hbm, ⟨54, _⟩ => ⟨S262144x1, .f32⟩
  | .hbm, ⟨55, _⟩ => ⟨S262144x1, .f32⟩
  | .hbm, ⟨56, _⟩ => ⟨S262144x512, .f32⟩
  | .hbm, ⟨57, _⟩ => ⟨S262144x512, .f32⟩
  | .hbm, ⟨58, _⟩ => ⟨S262144x512, .f32⟩
  | .hbm, ⟨59, _⟩ => ⟨S_, .f32⟩
  | .hbm, ⟨60, _⟩ => ⟨S262144, .f32⟩
  | .hbm, ⟨61, _⟩ => ⟨S262144x1, .f32⟩
  | .hbm, ⟨62, _⟩ => ⟨S_, .f32⟩
  | .hbm, ⟨63, _⟩ => ⟨S262144x1, .f32⟩
  | .hbm, ⟨64, _⟩ => ⟨S262144x1, .f32⟩
  | .hbm, ⟨65, _⟩ => ⟨S262144x512, .f32⟩
  | .hbm, ⟨66, _⟩ => ⟨S262144x512, .f32⟩
  | .hbm, ⟨67, _⟩ => ⟨S_, .f32⟩
  | .hbm, ⟨68, _⟩ => ⟨S262144x1, .f32⟩
  | .hbm, ⟨69, _⟩ => ⟨S262144x1, .f32⟩
  | .hbm, ⟨70, _⟩ => ⟨S262144x1, .f32⟩
  | .hbm, ⟨71, _⟩ => ⟨S262144x512, .f32⟩
  | .hbm, ⟨72, _⟩ => ⟨S262144x512, .f32⟩
  | .hbm, ⟨73, _⟩ => ⟨S262144x512, .f32⟩
  | .hbm, ⟨74, _⟩ => ⟨S262144x512, .f32⟩
  | .hbm, ⟨75, _⟩ => ⟨S262144x512, .f32⟩
  | .hbm, ⟨76, _⟩ => ⟨S262144x512, .f32⟩
  | .hbm, ⟨77, _⟩ => ⟨S_, .f32⟩
  | .hbm, ⟨78, _⟩ => ⟨S_, .f32⟩
  | .hbm, ⟨79, _⟩ => ⟨S262144x512, .f32⟩
  | .hbm, ⟨80, _⟩ => ⟨S262144x512, .i1⟩
  | .hbm, ⟨81, _⟩ => ⟨S_, .f32⟩
  | .hbm, ⟨82, _⟩ => ⟨S262144x512, .f32⟩
  | .hbm, ⟨83, _⟩ => ⟨S262144x512, .f32⟩
  | .hbm, ⟨84, _⟩ => ⟨S262144x512, .f32⟩
  | .hbm, ⟨85, _⟩ => ⟨S512x256, .f32⟩
  | .hbm, ⟨86, _⟩ => ⟨S262144x256, .f32⟩
  | .hbm, ⟨87, _⟩ => ⟨S1x256, .f32⟩
  | .hbm, ⟨88, _⟩ => ⟨S262144x256, .f32⟩
  | .hbm, ⟨89, _⟩ => ⟨S262144x256, .f32⟩
  | .hbm, ⟨90, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  reducesTo_S262144x512_S262144_d1 : S262144x512.ReducesTo [1] S262144
  bcast_S262144x1_S262144x512_0_1 : S262144x1.BroadcastsInDim S262144x512 (![0, 1] : Fin 2 → Fin S262144x512.rank)
  bcast_S_S262144x512 : S_.BroadcastsInDim S262144x512 (![] : Fin 0 → Fin S262144x512.rank)
  transposes_S256x512_S512x256_1_0 : S256x512.Transposes [1, 0] S512x256
  bcast_S256_S1x256_1 : S256.BroadcastsInDim S1x256 (![1] : Fin 1 → Fin S1x256.rank)
  dot_S262144x256_S256x512_S262144x512_1_0_0_1_n_n_wf : DotDims.WF S262144x256 S256x512 S262144x512 [1] [0] [0] [1] [] []
  dot_S262144x512_S512x256_S262144x256_1_0_0_1_n_n_wf : DotDims.WF S262144x512 S512x256 S262144x256 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf

class Facts : Prop extends Facts₀ where

variable [Facts]
-- ==== Proof.Spec.lean ====
/-
  The function both programs compute, one row of the input at a time.

  A row x of 256 entries is normalised (its mean subtracted, divided by the root of its variance plus a small
  positive number), scaled and shifted entry by entry, passed through the leaky rectifier, multiplied by the
  transposed 512 x 256 matrix and shifted; the 512 entries are normalised, scaled, shifted and rectified the
  same way, multiplied by the transposed 256 x 512 matrix, shifted, and the row itself is added back.

  The two programs differ in one place only: one multiplies the centred entry by the reciprocal root
  (`lnMul`), the other divides it by the root (`lnDiv`). On the extended reals the two agree whenever the
  radicand is above zero (a positive real, or the top element): below or at zero they do not. The radicand
  here is a sum of squares divided by a positive count, plus a positive number, so it is always above zero,
  whatever the entries are: no finiteness of the inputs is needed.
-/
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-- The small number added to a row's variance: the value of the word both programs carry. -/
def eps : EReal := Ideal.ofBits .f32 0x3727C5AC#32
/-- The count of a row of the input, as both programs carry it. -/
def n256 : EReal := Ideal.ofBits .f32 0x43800000#32
/-- The count of a row of the hidden layer. -/
def n512 : EReal := Ideal.ofBits .f32 0x44000000#32

/-- The leaky rectifier on one entry: the entry itself where it is at least zero, else the slope times it. -/
def lrelu (h : EReal) : EReal :=
  Scalar.select (FloatOps.cmpf (F := Ideal) (φ := .f32) .oge h (Ideal.ofBits .f32 0x00000000#32)) h
    (Ideal.ofBits .f32 0x3C23D70A#32 * h)

section rows
variable {n : ℕ}

/-- A row's mean: its sum divided by the count. -/
def rowMean (c : EReal) (xr : Fin n → EReal) : EReal := Ideal.div (∑ k, xr k) c

/-- A row's variance: the sum of the squared distances from the mean, divided by the count. -/
def rowVar (c : EReal) (xr : Fin n → EReal) : EReal :=
  Ideal.div (∑ k, (xr k - rowMean c xr) * (xr k - rowMean c xr)) c

/-- The normalised, scaled and shifted entry, with the reciprocal root as a factor. -/
def lnMul (c : EReal) (xr w b : Fin n → EReal) (k : Fin n) : EReal :=
  (xr k - rowMean c xr) * Ideal.rsqrt (rowVar c xr + eps) * w k + b k

/-- The same entry with the root as a divisor. -/
def lnDiv (c : EReal) (xr w b : Fin n → EReal) (k : Fin n) : EReal :=
  Ideal.div (xr k - rowMean c xr) (Ideal.sqrt (rowVar c xr + eps)) * w k + b k
end rows

/-- The hidden layer's entry n before its normalisation: the rectified normalised row against row n of the
    first matrix, plus the shift. -/
def hid (xr w1 b1 : Fin 256 → EReal) (We : Fin 512 → Fin 256 → EReal) (be : Fin 512 → EReal) (n : Fin 512) : EReal :=
  (∑ k : Fin 256, lrelu (lnMul n256 xr w1 b1 k) * We n k) + be n

/-- The result's entry q of one row. -/
def rowOut (xr w1 b1 : Fin 256 → EReal) (We : Fin 512 → Fin 256 → EReal) (be w2 b2 : Fin 512 → EReal)
    (Ws : Fin 256 → Fin 512 → EReal) (bs : Fin 256 → EReal) (q : Fin 256) : EReal :=
  (∑ n : Fin 512, lrelu (lnMul n512 (hid xr w1 b1 We be) w2 b2 n) * Ws q n) + bs q + xr q

/-- The whole result as one function of the argument arrays: entry (r, q) is entry q of the result of row r. -/
def G (x : (⟨2, ![262144, 256]⟩ : Shape).Idx → EReal) (w1 b1 : (⟨2, ![1, 256]⟩ : Shape).Idx → EReal)
    (We : (⟨2, ![512, 256]⟩ : Shape).Idx → EReal) (be : (⟨1, ![512]⟩ : Shape).Idx → EReal)
    (w2 b2 : (⟨2, ![1, 512]⟩ : Shape).Idx → EReal) (Ws : (⟨2, ![256, 512]⟩ : Shape).Idx → EReal)
    (bs : (⟨1, ![256]⟩ : Shape).Idx → EReal) : (⟨2, ![262144, 256]⟩ : Shape).Idx → EReal :=
  fun i => rowOut (fun k => x (ix2 (⟨(i 0).val, idx2_lt0 i⟩ : Fin 262144) k)) (fun k => w1 (ix2 (0 : Fin 1) k))
    (fun k => b1 (ix2 (0 : Fin 1) k)) (fun n k => We (ix2 n k)) (fun n => be (ix1 n)) (fun n => w2 (ix2 (0 : Fin 1) n))
    (fun n => b2 (ix2 (0 : Fin 1) n)) (fun q n => Ws (ix2 q n)) (fun q => bs (ix1 q)) (⟨(i 1).val, idx2_lt1 i⟩ : Fin 256)

theorem G_apply (x : (⟨2, ![262144, 256]⟩ : Shape).Idx → EReal) (w1 b1 : (⟨2, ![1, 256]⟩ : Shape).Idx → EReal)
    (We : (⟨2, ![512, 256]⟩ : Shape).Idx → EReal) (be : (⟨1, ![512]⟩ : Shape).Idx → EReal)
    (w2 b2 : (⟨2, ![1, 512]⟩ : Shape).Idx → EReal) (Ws : (⟨2, ![256, 512]⟩ : Shape).Idx → EReal)
    (bs : (⟨1, ![256]⟩ : Shape).Idx → EReal) (r : Fin 262144) (q : Fin 256) :
    G x w1 b1 We be w2 b2 Ws bs (ix2 r q)
      = rowOut (fun k => x (ix2 r k)) (fun k => w1 (ix2 (0 : Fin 1) k)) (fun k => b1 (ix2 (0 : Fin 1) k))
          (fun n k => We (ix2 n k)) (fun n => be (ix1 n)) (fun n => w2 (ix2 (0 : Fin 1) n))
          (fun n => b2 (ix2 (0 : Fin 1) n)) (fun q n => Ws (ix2 q n)) (fun q => bs (ix1 q)) q := rfl

/-! ## The words' values -/

theorem n256_eq : n256 = ((256 : ℝ) : EReal) := by
  unfold n256; simp [Ideal.ofBits, Ideal.ieee, -EReal.coe_mul]; norm_num

theorem n512_eq : n512 = ((512 : ℝ) : EReal) := by
  unfold n512; simp [Ideal.ofBits, Ideal.ieee, -EReal.coe_mul]; norm_num

/-- The small number is a positive real. -/
theorem eps_pos : ∃ r : ℝ, 0 < r ∧ eps = (r : EReal) := by
  refine ⟨(2 ^ 23 + 2606508 : ℕ) * (2 : ℝ) ^ ((110 : ℤ) - 127 - 23), by positivity, ?_⟩
  unfold eps; simp [Ideal.ofBits, Ideal.ieee, -EReal.coe_mul]

/-! ## A radicand above zero: the quotient by the root is the product with the reciprocal root -/

theorem mul_self_nonneg (a : EReal) : 0 ≤ a * a := by
  induction a using EReal.rec with
  | bot => simp
  | top => simp
  | coe r => rw [← EReal.coe_mul]; exact EReal.coe_nonneg.mpr (_root_.mul_self_nonneg r)

theorem div_nonneg {s : EReal} (hs : 0 ≤ s) {r : ℝ} (hr : 0 < r) : 0 ≤ Ideal.div s (r : EReal) := by
  rw [Ideal.div_coe hr.ne']
  exact mul_nonneg hs (EReal.coe_nonneg.mpr (by positivity))

theorem div_sqrt_eq_mul_rsqrt (d : EReal) {v : EReal} (hv : 0 < v) : Ideal.div d (Ideal.sqrt v) = d * Ideal.rsqrt v := by
  induction v using EReal.rec with
  | bot => exact absurd hv (by simp)
  | top =>
    rw [Ideal.sqrt_top, Ideal.rsqrt_top, Ideal.div, if_neg (by simp), EReal.inv_top]
  | coe r =>
    have hr : 0 < r := EReal.coe_pos.mp hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]

section rows
variable {n : ℕ}

theorem rowVar_nonneg {c : EReal} (hc : ∃ r : ℝ, 0 < r ∧ c = (r : EReal)) (xr : Fin n → EReal) : 0 ≤ rowVar c xr := by
  obtain ⟨r, hr, rfl⟩ := hc
  exact div_nonneg (Finset.sum_nonneg fun k _ => mul_self_nonneg _) hr

theorem radicand_pos {c : EReal} (hc : ∃ r : ℝ, 0 < r ∧ c = (r : EReal)) (xr : Fin n → EReal) : 0 < rowVar c xr + eps := by
  obtain ⟨e, he, hee⟩ := eps_pos
  rw [hee]
  exact lt_of_lt_of_le (EReal.coe_pos.mpr he) (le_add_of_nonneg_left (rowVar_nonneg hc xr))

/-- The two spellings of the normalised entry agree, for a positive real count. -/
theorem lnDiv_eq_lnMul {c : EReal} (hc : ∃ r : ℝ, 0 < r ∧ c = (r : EReal)) (xr w b : Fin n → EReal) (k : Fin n) :
    lnDiv c xr w b k = lnMul c xr w b k := by
  unfold lnDiv lnMul
  rw [div_sqrt_eq_mul_rsqrt _ (radicand_pos hc xr)]
end rows

theorem n256_pos : ∃ r : ℝ, 0 < r ∧ n256 = (r : EReal) := ⟨256, by norm_num, n256_eq⟩
theorem n512_pos : ∃ r : ℝ, 0 < r ∧ n512 = (r : EReal) := ⟨512, by norm_num, n512_eq⟩

end Cert.Spec

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KerPay.lean ====
/-
  The kernel body's stored value at one entry.

  At row p of a block the body's arithmetic touches only that row of the input block: the row's mean and
  variance are sums along the row, the two matrix products contract along it, and every other operation is entry
  by entry. So the stored value at (p, q) is entry q of the row function of row p of the input block and of the
  parameter blocks.
-/
import proofs.«179123_j39616778338828_1_alg».proof.Proof.Gen.KernelIdeal.Skeleton
import proofs.«179123_j39616778338828_1_alg».proof.Proof.Spec
import proofs.«179123_j39616778338828_1_alg».proof.Proof.LibPlainDot
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open scoped BigOperators

/-! ## One normalisation stage, on any block of R rows and C columns -/

section stage
variable {R C : ℕ} (x : FVec Ideal (⟨2, ![R, C]⟩ : Shape) .f32) (s : FVec Ideal (⟨1, ![R]⟩ : Shape) .f32) (cw : BitVec 32)
  (hsc : (⟨1, ![R]⟩ : Shape).ShapeCasts ⟨2, ![R, 1]⟩) (hb : (⟨2, ![R, 1]⟩ : Shape).Broadcasts ⟨2, ![R, C]⟩)
  (hr : (⟨2, ![R, C]⟩ : Shape).Reduces [1] ⟨1, ![R]⟩)
  (hφ : FKind.Formats .f32) (hacc : (0x00000000#32 : BitVec 32) = FKind.add.neutral .f32 hφ)
  (w b : FVec Ideal (⟨2, ![1, C]⟩ : Shape) .f32) (hbw : (⟨2, ![1, C]⟩ : Shape).Broadcasts ⟨2, ![R, C]⟩)

/-- The column of row means: the row sums, made a column, over the count. -/
def meanCol : FVec Ideal (⟨2, ![R, 1]⟩ : Shape) .f32 :=
  divf (shapeCast ⟨2, ![R, 1]⟩ s hsc) (broadcast ⟨2, ![R, 1]⟩ (Scalar.ofBits .f32 cw))

theorem meanCol_apply (p : Fin R) (u : Fin 1) :
    meanCol s cw hsc (ix2 p u) = Ideal.div (s (ix1 p)) (Ideal.ofBits .f32 cw) :=
  congrArg (fun t => Ideal.div t (Ideal.ofBits .f32 cw)) (PlainDot.shapeCast_a_a1_apply s hsc p u)

/-- The block with each row's mean subtracted. -/
def centred : FVec Ideal (⟨2, ![R, C]⟩ : Shape) .f32 :=
  subf x (broadcastTo ⟨2, ![R, C]⟩ (meanCol s cw hsc) hb)

theorem centred_apply (p : Fin R) (k : Fin C) :
    centred x s cw hsc hb (ix2 p k) = x (ix2 p k) - Ideal.div (s (ix1 p)) (Ideal.ofBits .f32 cw) :=
  congrArg (fun t => x (ix2 p k) - t)
    ((PlainDot.broadcastTo_a1_ab_apply (meanCol s cw hsc) hb p k).trans (meanCol_apply s cw hsc p 0))

/-- The column of reciprocal roots: of each row's mean squared distance plus the small number. -/
def rstdCol : FVec Ideal (⟨2, ![R, 1]⟩ : Shape) .f32 :=
  rsqrt (addf
    (divf (shapeCast ⟨2, ![R, 1]⟩
        (multiReduction .add [1] (⟨1, ![R]⟩ : Shape) (mulf (centred x s cw hsc hb) (centred x s cw hsc hb)) 0x00000000#32 hr hφ hacc) hsc)
      (broadcast ⟨2, ![R, 1]⟩ (Scalar.ofBits .f32 cw)))
    (broadcast ⟨2, ![R, 1]⟩ (Scalar.ofBits .f32 0x3727C5AC#32)))

theorem rstdCol_apply (p : Fin R) (u : Fin 1) :
    rstdCol x s cw hsc hb hr hφ hacc (ix2 p u)
      = Ideal.rsqrt (Ideal.div (∑ k : Fin C, centred x s cw hsc hb (ix2 p k) * centred x s cw hsc hb (ix2 p k))
          (Ideal.ofBits .f32 cw) + Cert.Spec.eps) :=
  congrArg (fun t => Ideal.rsqrt (Ideal.div t (Ideal.ofBits .f32 cw) + Cert.Spec.eps))
    ((PlainDot.shapeCast_a_a1_apply _ hsc p u).trans (PlainDot.rowSum_apply _ _ hr hφ hacc p))

/-- The normalised block, scaled and shifted by the one-row blocks w and b. -/
def lnVec : FVec Ideal (⟨2, ![R, C]⟩ : Shape) .f32 :=
  addf (mulf (mulf (centred x s cw hsc hb) (broadcastTo ⟨2, ![R, C]⟩ (rstdCol x s cw hsc hb hr hφ hacc) hb))
    (broadcastTo ⟨2, ![R, C]⟩ w hbw)) (broadcastTo ⟨2, ![R, C]⟩ b hbw)

/-- Where the vector of sums holds row p's sum, the normalised block's row p is the row function's. -/
theorem lnVec_apply (p : Fin R) (hs : s (ix1 p) = ∑ k : Fin C, x (ix2 p k)) (k : Fin C) :
    lnVec x s cw hsc hb hr hφ hacc w b hbw (ix2 p k)
      = Cert.Spec.lnMul (Ideal.ofBits .f32 cw) (fun k => x (ix2 p k)) (fun k => w (ix2 (0 : Fin 1) k))
          (fun k => b (ix2 (0 : Fin 1) k)) k := by
  have hc : ∀ k : Fin C, centred x s cw hsc hb (ix2 p k)
      = x (ix2 p k) - Cert.Spec.rowMean (Ideal.ofBits .f32 cw) (fun k => x (ix2 p k)) := fun k => by
    rw [centred_apply, hs]; rfl
  have hrs : broadcastTo ⟨2, ![R, C]⟩ (rstdCol x s cw hsc hb hr hφ hacc) hb (ix2 p k)
      = Ideal.rsqrt (Cert.Spec.rowVar (Ideal.ofBits .f32 cw) (fun k => x (ix2 p k)) + Cert.Spec.eps) := by
    rw [PlainDot.broadcastTo_a1_ab_apply, rstdCol_apply]
    unfold Cert.Spec.rowVar
    exact congrArg (fun t => Ideal.rsqrt (Ideal.div t (Ideal.ofBits .f32 cw) + Cert.Spec.eps))
      (Finset.sum_congr rfl fun k _ => by rw [hc k])
  show centred x s cw hsc hb (ix2 p k) * broadcastTo ⟨2, ![R, C]⟩ (rstdCol x s cw hsc hb hr hφ hacc) hb (ix2 p k)
      * broadcastTo ⟨2, ![R, C]⟩ w hbw (ix2 p k) + broadcastTo ⟨2, ![R, C]⟩ b hbw (ix2 p k) = _
  rw [hc k, hrs, broadcastTo_1b_ab_apply, broadcastTo_1b_ab_apply]
  rfl

end stage

/-- The leaky rectifier on every entry of a block. -/
def lreluVec {S : Shape} (h : FVec Ideal S .f32) : FVec Ideal S .f32 :=
  select (cmpf .oge h (broadcast S (Scalar.ofBits .f32 0x00000000#32))) h
    (mulf (broadcast S (Scalar.ofBits .f32 0x3C23D70A#32)) h)

theorem lreluVec_apply {S : Shape} (h : FVec Ideal S .f32) (i : S.Idx) : lreluVec h i = Cert.Spec.lrelu (h i) := rfl

/-- The rectified block cut to the narrower format keeps its entries. -/
theorem trunc_lrelu_apply {S : Shape} (h : FVec Ideal S .f32) (hlt : FTy.bits .bf16 < FTy.bits .f32) (i : S.Idx) :
    (truncf .bf16 (lreluVec h) hlt : FVec Ideal S .bf16) i = Cert.Spec.lrelu (h i) := rfl

/-! ## The hidden block -/

/-- The hidden block as the stages above: the input block normalised by its own row sums, rectified, against the
    transposed first matrix, plus the one-row shift. -/
theorem pay2_eq (v0 : Vec Ideal S2048x256 .f32) (v19 v22 : Vec Ideal S1x256 .f32) (v31 : Vec Ideal S512x256 .bf16)
    (v35 : Vec Ideal S1x512 .f32) :
    k0_pay2 (F := Ideal) v0 v19 v22 v31 v35
      = addf (matmul dot_S2048x256_S256x512_S2048x512_1_0_0_1_n_n none
          (truncf .bf16 (lreluVec (lnVec v0
            (multiReduction .add [1] S2048 v0 0x00000000#32 reduces_S2048x256_S2048 (.inl rfl) rfl)
            0x43800000#32 shapeCasts_S2048_S2048x1 broadcasts_S2048x1_S2048x256 reduces_S2048x256_S2048 (.inl rfl) rfl
            v19 v22 broadcasts_S1x256_S2048x256)) bitsLt_bf16_f32)
          (transpose S256x512 [1, 0] (shapeCast S512x256 v31 shapeCasts_S512x256_S512x256 : FVec Ideal S512x256 .bf16)
            transposes_S512x256_p1_0_S256x512 : FVec Ideal S256x512 .bf16)
          (constant S2048x512 .f32 0x00000000#32))
        (broadcastTo S2048x512 (shapeCast S1x512 v35 shapeCasts_S1x512_S1x512 : FVec Ideal S1x512 .f32) broadcasts_S1x512_S2048x512) := rfl

/-- The hidden block at (p, n) is the hidden layer's entry n of row p. -/
theorem pay2_apply (v0 : Vec Ideal S2048x256 .f32) (v19 v22 : Vec Ideal S1x256 .f32) (v31 : Vec Ideal S512x256 .bf16)
    (v35 : Vec Ideal S1x512 .f32) (p : Fin 2048) (n : Fin 512) :
    k0_pay2 (F := Ideal) v0 v19 v22 v31 v35 (ix2 p n)
      = Cert.Spec.hid (fun k => v0 (ix2 p k)) (fun k => v19 (ix2 (0 : Fin 1) k)) (fun k => v22 (ix2 (0 : Fin 1) k))
          (fun n k => v31 (ix2 n k)) (fun n => v35 (ix2 (0 : Fin 1) n)) n := by
  rw [pay2_eq]
  refine (addf_apply _ _ _).trans ?_
  refine congrArg₂ (· + ·) ?_ ?_
  · refine (PlainDot.matmul_zero_apply _ rfl rfl rfl rfl rfl rfl none _ _ p n).trans ?_
    refine Finset.sum_congr rfl fun k _ => ?_
    refine congrArg₂ (· * ·) ?_ ?_
    · refine (trunc_lrelu_apply _ _ _).trans (congrArg Cert.Spec.lrelu ?_)
      exact lnVec_apply _ _ _ _ _ _ _ _ _ _ _ p (PlainDot.rowSum_apply _ _ _ _ _ p) k
    · exact (transpose_ix2_apply _ _ k n).trans (congrFun (shapeCast_self _ _) _)
  · exact (broadcastTo_1b_ab_apply _ _ p n).trans (congrFun (shapeCast_self _ _) _)

/-- The vector of the hidden block's row sums at p. -/
theorem pay3_apply (v0 : Vec Ideal S2048x256 .f32) (v19 v22 : Vec Ideal S1x256 .f32) (v31 : Vec Ideal S512x256 .bf16)
    (v35 : Vec Ideal S1x512 .f32) (p : Fin 2048) :
    k0_pay3 (F := Ideal) v0 v19 v22 v31 v35 (ix1 p) = ∑ n : Fin 512, k0_pay2 (F := Ideal) v0 v19 v22 v31 v35 (ix2 p n) :=
  PlainDot.rowSum_apply (k0_pay2 (F := Ideal) v0 v19 v22 v31 v35) 0x00000000#32 reduces_S2048x512_S2048 (.inl rfl) rfl p

/-! ## The stored block -/

/-- The stored block as the stages above: the hidden block normalised by the vector of its row sums, rectified,
    against the transposed second matrix, plus the one-row shift, plus the input block. -/
theorem pay1_eq (v0 : Vec Ideal S2048x256 .f32) (v38 : FVec Ideal S2048x512 .f32) (v39 : FVec Ideal S2048 .f32)
    (v57 v60 : Vec Ideal S1x512 .f32) (v69 : Vec Ideal S256x512 .bf16) (v73 : Vec Ideal S1x256 .f32) :
    k0_pay1 (F := Ideal) v0 v38 v39 v57 v60 v69 v73
      = addf (addf (matmul dot_S2048x512_S512x256_S2048x256_1_0_0_1_n_n none
          (truncf .bf16 (lreluVec (lnVec v38 v39 0x44000000#32 shapeCasts_S2048_S2048x1 broadcasts_S2048x1_S2048x512
            reduces_S2048x512_S2048 (.inl rfl) rfl v57 v60 broadcasts_S1x512_S2048x512)) bitsLt_bf16_f32)
          (transpose S512x256 [1, 0] (shapeCast S256x512 v69 shapeCasts_S256x512_S256x512 : FVec Ideal S256x512 .bf16)
            transposes_S256x512_p1_0_S512x256 : FVec Ideal S512x256 .bf16)
          (constant S2048x256 .f32 0x00000000#32))
        (broadcastTo S2048x256 (shapeCast S1x256 v73 shapeCasts_S1x256_S1x256 : FVec Ideal S1x256 .f32) broadcasts_S1x256_S2048x256))
        v0 := rfl

/-- The value the body stores, at entry (p, q) of the block, is entry q of the row function of row p. -/
theorem pay_apply (v0 : Vec Ideal S2048x256 .f32) (v19 v22 : Vec Ideal S1x256 .f32) (v31 : Vec Ideal S512x256 .bf16)
    (v35 v57 v60 : Vec Ideal S1x512 .f32) (v69 : Vec Ideal S256x512 .bf16) (v73 : Vec Ideal S1x256 .f32)
    (p : Fin 2048) (q : Fin 256) :
    k0_pay1 (F := Ideal) v0 (k0_pay2 v0 v19 v22 v31 v35) (k0_pay3 v0 v19 v22 v31 v35) v57 v60 v69 v73 (ix2 p q)
      = Cert.Spec.rowOut (fun k => v0 (ix2 p k)) (fun k => v19 (ix2 (0 : Fin 1) k)) (fun k => v22 (ix2 (0 : Fin 1) k))
          (fun n k => v31 (ix2 n k)) (fun n => v35 (ix2 (0 : Fin 1) n)) (fun n => v57 (ix2 (0 : Fin 1) n))
          (fun n => v60 (ix2 (0 : Fin 1) n)) (fun q n => v69 (ix2 q n)) (fun q => v73 (ix2 (0 : Fin 1) q)) q := by
  have hrow : (fun n : Fin 512 => k0_pay2 (F := Ideal) v0 v19 v22 v31 v35 (ix2 p n))
      = Cert.Spec.hid (fun k => v0 (ix2 p k)) (fun k => v19 (ix2 (0 : Fin 1) k)) (fun k => v22 (ix2 (0 : Fin 1) k))
          (fun n k => v31 (ix2 n k)) (fun n => v35 (ix2 (0 : Fin 1) n)) :=
    funext fun n => pay2_apply v0 v19 v22 v31 v35 p n
  rw [pay1_eq]
  refine (addf_apply _ _ _).trans ?_
  refine congrArg₂ (· + ·) ?_ rfl
  refine (addf_apply _ _ _).trans ?_
  refine congrArg₂ (· + ·) ?_ ?_
  · refine (PlainDot.matmul_zero_apply _ rfl rfl rfl rfl rfl rfl none _ _ p q).trans ?_
    refine Finset.sum_congr rfl fun n _ => ?_
    refine congrArg₂ (· * ·) ?_ ?_
    · refine (trunc_lrelu_apply _ _ _).trans (congrArg Cert.Spec.lrelu ?_)
      refine (lnVec_apply _ _ _ _ _ _ _ _ _ _ _ p (pay3_apply v0 v19 v22 v31 v35 p) n).trans ?_
      rw [hrow]
      rfl
    · exact (transpose_ix2_apply _ _ n q).trans (congrFun (shapeCast_self _ _) _)
  · exact (broadcastTo_1b_ab_apply _ _ p q).trans (congrFun (shapeCast_self _ _) _)

end Cert.KernelIdeal.Pay

end
-- ==== Proof.KerValue.lean ====
/-
  From the blocks to the array.

  The grid has 128 points. At point t the input window and the result window hold rows 2048 t .. 2048 t + 2047
  of their arrays, all 256 columns; every parameter window holds its whole array at every point. The two
  matrices reach their windows through a change of float format, which is the identity on the extended reals,
  and the two shift vectors through a reshape to one row. The stored value at row p of the block depends on row
  p of the input block only, so what point t writes back is block t of ONE function of the argument arrays, the
  row function applied row by row; the 128 blocks tile the result array, so the array ends holding that
  function.
-/
import proofs.«179123_j39616778338828_1_alg».proof.Proof.Gen.KernelIdeal.Value
import proofs.«179123_j39616778338828_1_alg».proof.Proof.KerPay
import proofs.«179123_j39616778338828_1_alg».proof.Proof.Spec
import Idealize.ShloMosaic.Lib.Pipeline.Value
import Idealize.ShloMosaic.Lib.ValueLayout
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The index maps, decided over the grid -/

/-- The input's block at point t is the t-th band of rows. -/
theorem idxIn : ∀ t : Fin cfg0.N, win0_0.index t (0 : Fin 2) = t.val ∧ win0_0.index t (1 : Fin 2) = 0 :=
  (by decide +kernel : ∀ t : Fin grid0.N, _)

/-- So is the result's. -/
theorem idxOut : ∀ t : Fin cfg0.N, win0_9.index t (0 : Fin 2) = t.val ∧ win0_9.index t (1 : Fin 2) = 0 :=
  (by decide +kernel : ∀ t : Fin grid0.N, _)

/-- Every parameter window's block is its whole array, at every point. -/
theorem idxP1 : ∀ t : Fin cfg0.N, win0_1.index t (0 : Fin 2) = 0 ∧ win0_1.index t (1 : Fin 2) = 0 :=
  (by decide +kernel : ∀ t : Fin grid0.N, _)
theorem idxP2 : ∀ t : Fin cfg0.N, win0_2.index t (0 : Fin 2) = 0 ∧ win0_2.index t (1 : Fin 2) = 0 :=
  (by decide +kernel : ∀ t : Fin grid0.N, _)
theorem idxP3 : ∀ t : Fin cfg0.N, win0_3.index t (0 : Fin 2) = 0 ∧ win0_3.index t (1 : Fin 2) = 0 :=
  (by decide +kernel : ∀ t : Fin grid0.N, _)
theorem idxP4 : ∀ t : Fin cfg0.N, win0_4.index t (0 : Fin 2) = 0 ∧ win0_4.index t (1 : Fin 2) = 0 :=
  (by decide +kernel : ∀ t : Fin grid0.N, _)
theorem idxP5 : ∀ t : Fin cfg0.N, win0_5.index t (0 : Fin 2) = 0 ∧ win0_5.index t (1 : Fin 2) = 0 :=
  (by decide +kernel : ∀ t : Fin grid0.N, _)
theorem idxP6 : ∀ t : Fin cfg0.N, win0_6.index t (0 : Fin 2) = 0 ∧ win0_6.index t (1 : Fin 2) = 0 :=
  (by decide +kernel : ∀ t : Fin grid0.N, _)
theorem idxP7 : ∀ t : Fin cfg0.N, win0_7.index t (0 : Fin 2) = 0 ∧ win0_7.index t (1 : Fin 2) = 0 :=
  (by decide +kernel : ∀ t : Fin grid0.N, _)
theorem idxP8 : ∀ t : Fin cfg0.N, win0_8.index t (0 : Fin 2) = 0 ∧ win0_8.index t (1 : Fin 2) = 0 :=
  (by decide +kernel : ∀ t : Fin grid0.N, _)

/-! ## The blocks read at an entry -/

/-- Row p of the input block at point t is row 2048 t + p of the input. -/
theorem xblk_apply (c : Dev nD) (t : Fin cfg0.N) (p : Fin 2048) (k : Fin 256) (hr : t.val * 2048 + p.val < 262144) :
    (iblk m c 0 t : Vec Ideal S2048x256 .f32) (ix2 p k) = (m ((c : Thread nD τ).loc main_arg0)) (ix2 (⟨t.val * 2048 + p.val, hr⟩ : Fin 262144) k) := by
  show V m c main_arg0 (((cfg0.win 0).blk t).view.emb (ix2 p k)) = _
  rw [V_main_arg0]
  refine congrArg _ (funext fun a => Fin.ext ?_)
  obtain ⟨e0, e1⟩ := idxIn t
  match a with
  | ⟨0, _⟩ => show win0_0.index t (0 : Fin 2) * 2048 + 1 * p.val = t.val * 2048 + p.val; rw [e0]; omega
  | ⟨1, _⟩ => show win0_0.index t (1 : Fin 2) * 256 + 1 * k.val = k.val; rw [e1]; omega

/-- The one row of parameter block 1 is the one row of its array, at every point. -/
theorem pblk1_apply (c : Dev nD) (t : Fin cfg0.N) (k : Fin 256) :
    (iblk m c 1 t : Vec Ideal S1x256 .f32) (ix2 (0 : Fin 1) k) = (m ((c : Thread nD τ).loc main_arg2)) (ix2 (0 : Fin 1) k) := by
  show V m c main_arg2 (((cfg0.win 1).blk t).view.emb (ix2 (0 : Fin 1) k)) = _
  rw [V_main_arg2]
  refine congrArg _ (funext fun a => Fin.ext ?_)
  obtain ⟨e0, e1⟩ := idxP1 t
  match a with
  | ⟨0, _⟩ => show win0_1.index t (0 : Fin 2) * 1 + 1 * 0 = 0; rw [e0]
  | ⟨1, _⟩ => show win0_1.index t (1 : Fin 2) * 256 + 1 * k.val = k.val; rw [e1]; omega

/-- The one row of parameter block 2 is the one row of its array, at every point. -/
theorem pblk2_apply (c : Dev nD) (t : Fin cfg0.N) (k : Fin 256) :
    (iblk m c 2 t : Vec Ideal S1x256 .f32) (ix2 (0 : Fin 1) k) = (m ((c : Thread nD τ).loc main_arg3)) (ix2 (0 : Fin 1) k) := by
  show V m c main_arg3 (((cfg0.win 2).blk t).view.emb (ix2 (0 : Fin 1) k)) = _
  rw [V_main_arg3]
  refine congrArg _ (funext fun a => Fin.ext ?_)
  obtain ⟨e0, e1⟩ := idxP2 t
  match a with
  | ⟨0, _⟩ => show win0_2.index t (0 : Fin 2) * 1 + 1 * 0 = 0; rw [e0]
  | ⟨1, _⟩ => show win0_2.index t (1 : Fin 2) * 256 + 1 * k.val = k.val; rw [e1]; omega

/-- The one row of parameter block 5 is the one row of its array, at every point. -/
theorem pblk5_apply (c : Dev nD) (t : Fin cfg0.N) (k : Fin 512) :
    (iblk m c 5 t : Vec Ideal S1x512 .f32) (ix2 (0 : Fin 1) k) = (m ((c : Thread nD τ).loc main_arg6)) (ix2 (0 : Fin 1) k) := by
  show V m c main_arg6 (((cfg0.win 5).blk t).view.emb (ix2 (0 : Fin 1) k)) = _
  rw [V_main_arg6]
  refine congrArg _ (funext fun a => Fin.ext ?_)
  obtain ⟨e0, e1⟩ := idxP5 t
  match a with
  | ⟨0, _⟩ => show win0_5.index t (0 : Fin 2) * 1 + 1 * 0 = 0; rw [e0]
  | ⟨1, _⟩ => show win0_5.index t (1 : Fin 2) * 512 + 1 * k.val = k.val; rw [e1]; omega

/-- The one row of parameter block 6 is the one row of its array, at every point. -/
theorem pblk6_apply (c : Dev nD) (t : Fin cfg0.N) (k : Fin 512) :
    (iblk m c 6 t : Vec Ideal S1x512 .f32) (ix2 (0 : Fin 1) k) = (m ((c : Thread nD τ).loc main_arg7)) (ix2 (0 : Fin 1) k) := by
  show V m c main_arg7 (((cfg0.win 6).blk t).view.emb (ix2 (0 : Fin 1) k)) = _
  rw [V_main_arg7]
  refine congrArg _ (funext fun a => Fin.ext ?_)
  obtain ⟨e0, e1⟩ := idxP6 t
  match a with
  | ⟨0, _⟩ => show win0_6.index t (0 : Fin 2) * 1 + 1 * 0 = 0; rw [e0]
  | ⟨1, _⟩ => show win0_6.index t (1 : Fin 2) * 512 + 1 * k.val = k.val; rw [e1]; omega

/-- The region finds matrix window 3's array at the argument's contents: the change of float format is the identity on the extended reals. -/
theorem V_main_v0 (c : Dev nD) : @Eq (FVec Ideal S512x256 .bf16) (V m c main_v0)
    (truncf .bf16 ((m ((c : Thread nD τ).loc main_arg4)) : FVec Ideal S512x256 .f32) bitsLt_bf16_f32) := by
  dsimp only [Gen.V, Gen.hostOps0]; after_results <;> rfl

/-- Entry (n, k) of matrix block 3 is entry (n, k) of its argument, at every point. -/
theorem mblk3_apply (c : Dev nD) (t : Fin cfg0.N) (n : Fin 512) (k : Fin 256) :
    (iblk m c 3 t : Vec Ideal S512x256 .bf16) (ix2 n k) = (m ((c : Thread nD τ).loc main_arg4)) (ix2 n k) := by
  show V m c main_v0 (((cfg0.win 3).blk t).view.emb (ix2 n k)) = _
  rw [V_main_v0]
  show (m ((c : Thread nD τ).loc main_arg4)) (((cfg0.win 3).blk t).view.emb (ix2 n k)) = _
  refine congrArg _ (funext fun a => Fin.ext ?_)
  obtain ⟨e0, e1⟩ := idxP3 t
  match a with
  | ⟨0, _⟩ => show win0_3.index t (0 : Fin 2) * 512 + 1 * n.val = n.val; rw [e0]; omega
  | ⟨1, _⟩ => show win0_3.index t (1 : Fin 2) * 256 + 1 * k.val = k.val; rw [e1]; omega

/-- The region finds matrix window 7's array at the argument's contents: the change of float format is the identity on the extended reals. -/
theorem V_main_v1 (c : Dev nD) : @Eq (FVec Ideal S256x512 .bf16) (V m c main_v1)
    (truncf .bf16 ((m ((c : Thread nD τ).loc main_arg8)) : FVec Ideal S256x512 .f32) bitsLt_bf16_f32) := by
  dsimp only [Gen.V, Gen.hostOps0]; after_results <;> rfl

/-- Entry (n, k) of matrix block 7 is entry (n, k) of its argument, at every point. -/
theorem mblk7_apply (c : Dev nD) (t : Fin cfg0.N) (n : Fin 256) (k : Fin 512) :
    (iblk m c 7 t : Vec Ideal S256x512 .bf16) (ix2 n k) = (m ((c : Thread nD τ).loc main_arg8)) (ix2 n k) := by
  show V m c main_v1 (((cfg0.win 7).blk t).view.emb (ix2 n k)) = _
  rw [V_main_v1]
  show (m ((c : Thread nD τ).loc main_arg8)) (((cfg0.win 7).blk t).view.emb (ix2 n k)) = _
  refine congrArg _ (funext fun a => Fin.ext ?_)
  obtain ⟨e0, e1⟩ := idxP7 t
  match a with
  | ⟨0, _⟩ => show win0_7.index t (0 : Fin 2) * 256 + 1 * n.val = n.val; rw [e0]; omega
  | ⟨1, _⟩ => show win0_7.index t (1 : Fin 2) * 512 + 1 * k.val = k.val; rw [e1]; omega

/-- The region finds shift window 4's array at the argument's contents laid out as one row. -/
theorem V_main_v2 (c : Dev nD) : @Eq (FVec Ideal S1x512 .f32) (V m c main_v2)
    (shapeCast S1x512 ((m ((c : Thread nD τ).loc main_arg5)) : FVec Ideal S512 .f32) shapeCasts_S512_S1x512) := by
  dsimp only [Gen.V, Gen.hostOps0]; after_results <;> rfl

/-- Entry n of the one row of shift block 4 is entry n of its argument, at every point. -/
theorem sblk4_apply (c : Dev nD) (t : Fin cfg0.N) (n : Fin 512) :
    (iblk m c 4 t : Vec Ideal S1x512 .f32) (ix2 (0 : Fin 1) n) = (m ((c : Thread nD τ).loc main_arg5)) (ix1 n) := by
  show V m c main_v2 (((cfg0.win 4).blk t).view.emb (ix2 (0 : Fin 1) n)) = _
  rw [V_main_v2]
  have he : ((cfg0.win 4).blk t).view.emb (ix2 (0 : Fin 1) n) = ix2 (0 : Fin 1) n := funext fun a => Fin.ext (by
    obtain ⟨e0, e1⟩ := idxP4 t
    match a with
    | ⟨0, _⟩ => show win0_4.index t (0 : Fin 2) * 1 + 1 * 0 = 0; rw [e0]
    | ⟨1, _⟩ => show win0_4.index t (1 : Fin 2) * 512 + 1 * n.val = n.val; rw [e1]; omega)
  rw [he]
  exact shapeCast_a_1a_apply _ _ (0 : Fin 1) n

/-- The region finds shift window 8's array at the argument's contents laid out as one row. -/
theorem V_main_v3 (c : Dev nD) : @Eq (FVec Ideal S1x256 .f32) (V m c main_v3)
    (shapeCast S1x256 ((m ((c : Thread nD τ).loc main_arg9)) : FVec Ideal S256 .f32) shapeCasts_S256_S1x256) := by
  dsimp only [Gen.V, Gen.hostOps0]; after_results <;> rfl

/-- Entry n of the one row of shift block 8 is entry n of its argument, at every point. -/
theorem sblk8_apply (c : Dev nD) (t : Fin cfg0.N) (n : Fin 256) :
    (iblk m c 8 t : Vec Ideal S1x256 .f32) (ix2 (0 : Fin 1) n) = (m ((c : Thread nD τ).loc main_arg9)) (ix1 n) := by
  show V m c main_v3 (((cfg0.win 8).blk t).view.emb (ix2 (0 : Fin 1) n)) = _
  rw [V_main_v3]
  have he : ((cfg0.win 8).blk t).view.emb (ix2 (0 : Fin 1) n) = ix2 (0 : Fin 1) n := funext fun a => Fin.ext (by
    obtain ⟨e0, e1⟩ := idxP8 t
    match a with
    | ⟨0, _⟩ => show win0_8.index t (0 : Fin 2) * 1 + 1 * 0 = 0; rw [e0]
    | ⟨1, _⟩ => show win0_8.index t (1 : Fin 2) * 256 + 1 * n.val = n.val; rw [e1]; omega)
  rw [he]
  exact shapeCast_a_1a_apply _ _ (0 : Fin 1) n

/-! ## What a point writes back, and the array after the run -/

/-- The row function applied row by row to the launch contents of the argument arrays. -/
abbrev result (c : Dev nD) : FVec Ideal S262144x256 .f32 :=
  Cert.Spec.G (m ((c : Thread nD τ).loc main_arg0)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

theorem point_lt (t : Fin cfg0.N) : t.val < 128 := by
  have h := t.isLt
  have hN : cfg0.N = 128 := N_0
  omega

/-- What point t writes back is block t of the row function of the argument arrays. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero origin]
  simp only [View.ld_unit_zero (S := S2048x256) origin, View.ld_unit_zero (S := S1x256) origin,
    View.ld_unit_zero (S := S512x256) origin, View.ld_unit_zero (S := S1x512) origin, View.ld_unit_zero (S := S256x512) origin]
  funext j
  obtain ⟨p, q, rfl⟩ : ∃ (p : Fin 2048) (q : Fin 256), j = ix2 p q := ⟨j 0, j 1, eq_ix2 j⟩
  have ht := point_lt t
  have hr : t.val * 2048 + p.val < 262144 := by have := p.isLt; omega
  have hemb : ((cfg0.win 9).blk t).view.emb (ix2 p q) = ix2 (⟨t.val * 2048 + p.val, hr⟩ : Fin 262144) q :=
    funext fun a => Fin.ext (by
      obtain ⟨e0, e1⟩ := idxOut t
      match a with
      | ⟨0, _⟩ => show win0_9.index t (0 : Fin 2) * 2048 + 1 * p.val = t.val * 2048 + p.val; rw [e0]; omega
      | ⟨1, _⟩ => show win0_9.index t (1 : Fin 2) * 256 + 1 * q.val = q.val; rw [e1]; omega)
  refine (Cert.KernelIdeal.Pay.pay_apply (iblk m c 0 t) (iblk m c 1 t) (iblk m c 2 t) (iblk m c 3 t) (iblk m c 4 t) (iblk m c 5 t) (iblk m c 6 t) (iblk m c 7 t) (iblk m c 8 t) p q).trans ?_
  show _ = result m c (((cfg0.win 9).blk t).view.emb (ix2 p q))
  rw [hemb]
  refine Eq.trans ?_ (Cert.Spec.G_apply _ _ _ _ _ _ _ _ _ (⟨t.val * 2048 + p.val, hr⟩ : Fin 262144) q).symm
  simp only [xblk_apply m c t p _ hr, pblk1_apply m c t, pblk2_apply m c t, mblk3_apply m c t, sblk4_apply m c t,
    pblk5_apply m c t, pblk6_apply m c t, mblk7_apply m c t, sblk8_apply m c t]

/-- An entry of the result array is in point t's block iff its row is in the t-th band of rows. -/
theorem mem_blk (t : Fin cfg0.N) (i : S262144x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v4).slice (win0_9.rect t)).set ↔ _
  rw [View.set_slice_whole, Rect.mem_set_unit]
  exact Iff.rfl

/-- The 128 bands of 2048 rows tile the 262144 rows: row r is in band r / 2048. -/
theorem cover (i : S262144x256.Idx) :
    ∃ t : Fin cfg0.N, (cfg0.win 9).flush t = true ∧ i ∈ ((cfg0.win 9).blk t).view.set := by
  have hi0 : (i 0).val < 262144 := (i 0).isLt
  have hi1 : (i 1).val < 256 := (i 1).isLt
  have hN : cfg0.N = 128 := N_0
  have htl : (i 0).val / 2048 < cfg0.N := by omega
  refine ⟨⟨(i 0).val / 2048, htl⟩, flush0_9 _, ?_⟩
  rw [mem_blk]
  obtain ⟨e0, e1⟩ := idxOut ⟨(i 0).val / 2048, htl⟩
  intro a
  match a with
  | ⟨0, _⟩ =>
    show win0_9.index ⟨(i 0).val / 2048, htl⟩ (0 : Fin 2) * 2048 ≤ (i 0).val ∧ (i 0).val < win0_9.index ⟨(i 0).val / 2048, htl⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, htl⟩ (1 : Fin 2) * 256 ≤ (i 1).val ∧ (i 1).val < win0_9.index ⟨(i 0).val / 2048, htl⟩ (1 : Fin 2) * 256 + 256
    rw [e1]; omega

/-- So the result array ends holding the row function of the argument arrays. -/
theorem final (c : Dev nD) : (dats m 0 c).arrAt 9 cfg0.N = result m c :=
  (dats m 0 c).arrAt_eq_of_cover 9 (result m c) (fun t _ => flushed_eq m c t) cover

/-- The run, read: the result array at the row function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.KerValue

end
-- ==== Proof.RefTerm.lean ====
/-
  The reference's result as one term of its argument arrays, for any float values: @main's operations composed,
  grouped by what they compute. A row sum divided by the count is the mean; the squared distances from it,
  summed and divided by the count, the variance; the centred array divided by the root of the variance plus a
  small number, scaled and shifted, is the normalised array; the leaky rectifier keeps an entry at least zero
  and scales the others; a product with a transposed matrix plus a shift is a linear layer. The result is the
  second linear layer of the rectified, normalised first linear layer of the rectified, normalised input, plus
  the input.
-/
import proofs.«179123_j39616778338828_1_alg».proof.Proof.Gen.ReferenceIdeal

noncomputable section

namespace Cert.ReferenceIdeal.RefTerm

open Cert.ReferenceIdeal Cert.ReferenceIdeal.Gen Idealize.ShloMosaic

variable {F : FTy → Type} [FloatOps F]

/-! ## Rows of 256 -/

def sum256 (x : FVec F S262144x256 .f32) : FVec F S262144 .f32 :=
  Host.reduceAdd x (constant S_ .f32 0x00000000#32) reducesTo_S262144x256_S262144_d1 h_S_

def mean256 (x : FVec F S262144x256 .f32) : FVec F S262144x1 .f32 :=
  Host.divf (broadcastInDim S262144x1 ![0] bcast_S262144_S262144x1_0 (sum256 x))
    (broadcastInDim S262144x1 ![] bcast_S_S262144x1 (constant S_ .f32 0x43800000#32))

def ctr256 (x : FVec F S262144x256 .f32) : FVec F S262144x256 .f32 :=
  subf x (broadcastInDim S262144x256 ![0, 1] bcast_S262144x1_S262144x256_0_1 (mean256 x))

def var256 (x : FVec F S262144x256 .f32) : FVec F S262144x1 .f32 :=
  Host.divf (broadcastInDim S262144x1 ![0] bcast_S262144_S262144x1_0 (sum256 (mulf (ctr256 x) (ctr256 x))))
    (broadcastInDim S262144x1 ![] bcast_S_S262144x1 (constant S_ .f32 0x43800000#32))

def ln256 (x : FVec F S262144x256 .f32) (w b : FVec F S1x256 .f32) : FVec F S262144x256 .f32 :=
  addf (mulf (Host.divf (ctr256 x) (broadcastInDim S262144x256 ![0, 1] bcast_S262144x1_S262144x256_0_1
      (Host.sqrt (addf (var256 x) (broadcastInDim S262144x1 ![] bcast_S_S262144x1 (constant S_ .f32 0x3727C5AC#32))))))
    (broadcastInDim S262144x256 ![0, 1] bcast_S1x256_S262144x256_0_1 w))
    (broadcastInDim S262144x256 ![0, 1] bcast_S1x256_S262144x256_0_1 b)

def lrelu256 (h : FVec F S262144x256 .f32) : FVec F S262144x256 .f32 :=
  select (cmpf .oge h (broadcastInDim S262144x256 ![] bcast_S_S262144x256 (constant S_ .f32 0x00000000#32))) h
    (mulf (broadcastInDim S262144x256 ![] bcast_S_S262144x256 (constant S_ .f32 0x3C23D70A#32)) h)

def lin512 (h : FVec F S262144x256 .f32) (We : FVec F S512x256 .f32) (be : FVec F S512 .f32) : FVec F S262144x512 .f32 :=
  addf (Host.dotGeneral dot_S262144x256_S256x512_S262144x512_1_0_0_1_n_n none h
      (transpose S256x512 [1, 0] We transposes_S512x256_S256x512_1_0))
    (broadcastInDim S262144x512 ![0, 1] bcast_S1x512_S262144x512_0_1 (broadcastInDim S1x512 ![1] bcast_S512_S1x512_1 be))

/-! ## Rows of 512 -/

def sum512 (x : FVec F S262144x512 .f32) : FVec F S262144 .f32 :=
  Host.reduceAdd x (constant S_ .f32 0x00000000#32) reducesTo_S262144x512_S262144_d1 h_S_

def mean512 (x : FVec F S262144x512 .f32) : FVec F S262144x1 .f32 :=
  Host.divf (broadcastInDim S262144x1 ![0] bcast_S262144_S262144x1_0 (sum512 x))
    (broadcastInDim S262144x1 ![] bcast_S_S262144x1 (constant S_ .f32 0x44000000#32))

def ctr512 (x : FVec F S262144x512 .f32) : FVec F S262144x512 .f32 :=
  subf x (broadcastInDim S262144x512 ![0, 1] bcast_S262144x1_S262144x512_0_1 (mean512 x))

def var512 (x : FVec F S262144x512 .f32) : FVec F S262144x1 .f32 :=
  Host.divf (broadcastInDim S262144x1 ![0] bcast_S262144_S262144x1_0 (sum512 (mulf (ctr512 x) (ctr512 x))))
    (broadcastInDim S262144x1 ![] bcast_S_S262144x1 (constant S_ .f32 0x44000000#32))

def ln512 (x : FVec F S262144x512 .f32) (w b : FVec F S1x512 .f32) : FVec F S262144x512 .f32 :=
  addf (mulf (Host.divf (ctr512 x) (broadcastInDim S262144x512 ![0, 1] bcast_S262144x1_S262144x512_0_1
      (Host.sqrt (addf (var512 x) (broadcastInDim S262144x1 ![] bcast_S_S262144x1 (constant S_ .f32 0x3727C5AC#32))))))
    (broadcastInDim S262144x512 ![0, 1] bcast_S1x512_S262144x512_0_1 w))
    (broadcastInDim S262144x512 ![0, 1] bcast_S1x512_S262144x512_0_1 b)

def lrelu512 (h : FVec F S262144x512 .f32) : FVec F S262144x512 .f32 :=
  select (cmpf .oge h (broadcastInDim S262144x512 ![] bcast_S_S262144x512 (constant S_ .f32 0x00000000#32))) h
    (mulf (broadcastInDim S262144x512 ![] bcast_S_S262144x512 (constant S_ .f32 0x3C23D70A#32)) h)

def lin256 (h : FVec F S262144x512 .f32) (Ws : FVec F S256x512 .f32) (bs : FVec F S256 .f32) : FVec F S262144x256 .f32 :=
  addf (Host.dotGeneral dot_S262144x512_S512x256_S262144x256_1_0_0_1_n_n none h
      (transpose S512x256 [1, 0] Ws transposes_S256x512_S512x256_1_0))
    (broadcastInDim S262144x256 ![0, 1] bcast_S1x256_S262144x256_0_1 (broadcastInDim S1x256 ![1] bcast_S256_S1x256_1 bs))

/-- The reference's result of its nine float arguments. -/
def out (x : FVec F S262144x256 .f32) (w1 b1 : FVec F S1x256 .f32) (We : FVec F S512x256 .f32) (be : FVec F S512 .f32)
    (w2 b2 : FVec F S1x512 .f32) (Ws : FVec F S256x512 .f32) (bs : FVec F S256 .f32) : FVec F S262144x256 .f32 :=
  addf (lin256 (lrelu512 (ln512 (lin512 (lrelu256 (ln256 x w1 b1)) We be) w2 b2)) Ws bs) x

end Cert.ReferenceIdeal.RefTerm

end
-- ==== Proof.RefRun.lean ====
/-
  The reference's run: @main is a straight line of host operations once its two calls of the leaky rectifier
  (each of which calls the select in turn) are unfolded at their call sites; every weakly fair execution of it
  terminates with the result buffer at the operations' composed term of the arguments, the arguments unchanged.
-/
import proofs.«179123_j39616778338828_1_alg».proof.Proof.Gen.ReferenceIdeal
import proofs.«179123_j39616778338828_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded. The normalisation of the input's rows is the first
    twenty-seven; then the slope, and the first rectifier's seven over its own buffers (the zero, its broadcast, the
    comparison with it, the slope converted to its own type, its broadcast, the scaled array, the select); the first
    linear layer's five; the normalisation of its rows, thirty; the slope again and the second rectifier's seven; the
    second linear layer's five and the sum with the input. -/
abbrev ops : List (HloOp τ sig (Elt F)) :=
  [ StableHlo.nullary main_cst (constant S_ .f32 0x00000000#32),
    StableHlo.binary main_arg0 main_cst main_v0 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v0 main_v1 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x43800000#32),
    StableHlo.unary main_cst_0 main_v2 (broadcastInDim S262144x1 ![] bcast_S_S262144x1 : (⟨S_, .f32⟩ : BufTy).Contents (Elt F) → (⟨S262144x1, .f32⟩ : BufTy).Contents (Elt F)),
    StableHlo.binary main_v1 main_v2 main_v3 (Host.divf : (⟨S262144x1, .f32⟩ : BufTy).Contents (Elt F) → (⟨S262144x1, .f32⟩ : BufTy).Contents (Elt F) → (⟨S262144x1, .f32⟩ : BufTy).Contents (Elt F)),
    StableHlo.unary main_v3 main_v4 (broadcastInDim S262144x256 ![0, 1] bcast_S262144x1_S262144x256_0_1 : (⟨S262144x1, .f32⟩ : BufTy).Contents (Elt F) → (⟨S262144x256, .f32⟩ : BufTy).Contents (Elt F)),
    StableHlo.binary main_arg0 main_v4 main_v5 (subf : (⟨S262144x256, .f32⟩ : BufTy).Contents (Elt F) → (⟨S262144x256, .f32⟩ : BufTy).Contents (Elt F) → (⟨S262144x256, .f32⟩ : BufTy).Contents (Elt F)),
    StableHlo.binary main_v5 main_v5 main_v6 (mulf : (⟨S262144x256, .f32⟩ : BufTy).Contents (Elt F) → (⟨S262144x256, .f32⟩ : BufTy).Contents (Elt F) → (⟨S262144x256, .f32⟩ : BufTy).Contents (Elt F)),
    StableHlo.nullary main_cst_1 (constant S_ .f32 0x00000000#32),
    StableHlo.binary main_v6 main_cst_1 main_v7 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v7 main_v8 (broadcastInDim S262144x1 ![0] bcast_S262144_S262144x1_0 : (⟨S262144, .f32⟩ : BufTy).Contents (Elt F) → (⟨S262144x1, .f32⟩ : BufTy).Contents (Elt F)),
    StableHlo.nullary main_cst_2 (constant S_ .f32 0x43800000#32),
    StableHlo.unary main_cst_2 main_v9 (broadcastInDim S262144x1 ![] bcast_S_S262144x1 : (⟨S_, .f32⟩ : BufTy).Contents (Elt F) → (⟨S262144x1, .f32⟩ : BufTy).Contents (Elt F)),
    StableHlo.binary main_v8 main_v9 main_v10 (Host.divf : (⟨S262144x1, .f32⟩ : BufTy).Contents (Elt F) → (⟨S262144x1, .f32⟩ : BufTy).Contents (Elt F) → (⟨S262144x1, .f32⟩ : BufTy).Contents (Elt F)),
    StableHlo.unary main_v3 main_v11 (broadcastInDim S262144x256 ![0, 1] bcast_S262144x1_S262144x256_0_1 : (⟨S262144x1, .f32⟩ : BufTy).Contents (Elt F) → (⟨S262144x256, .f32⟩ : BufTy).Contents (Elt F)),
    StableHlo.binary main_arg0 main_v11 main_v12 (subf : (⟨S262144x256, .f32⟩ : BufTy).Contents (Elt F) → (⟨S262144x256, .f32⟩ : BufTy).Contents (Elt F) → (⟨S262144x256, .f32⟩ : BufTy).Contents (Elt F)),
    StableHlo.nullary main_cst_3 (constant S_ .f32 0x3727C5AC#32),
    StableHlo.unary main_cst_3 main_v13 (broadcastInDim S262144x1 ![] bcast_S_S262144x1 : (⟨S_, .f32⟩ : BufTy).Contents (Elt F) → (⟨S262144x1, .f32⟩ : BufTy).Contents (Elt F)),
    StableHlo.binary main_v10 main_v13 main_v14 (addf : (⟨S262144x1, .f32⟩ : BufTy).Contents (Elt F) → (⟨S262144x1, .f32⟩ : BufTy).Contents (Elt F) → (⟨S262144x1, .f32⟩ : BufTy).Contents (Elt F)),
    StableHlo.unary main_v14 main_v15 (Host.sqrt : (⟨S262144x1, .f32⟩ : BufTy).Contents (Elt F) → (⟨S262144x1, .f32⟩ : BufTy).Contents (Elt F)),
    StableHlo.unary main_v15 main_v16 (broadcastInDim S262144x256 ![0, 1] bcast_S262144x1_S262144x256_0_1 : (⟨S262144x1, .f32⟩ : BufTy).Contents (Elt F) → (⟨S262144x256, .f32⟩ : BufTy).Contents (Elt F)),
    StableHlo.binary main_v12 main_v16 main_v17 (Host.divf : (⟨S262144x256, .f32⟩ : BufTy).Contents (Elt F) → (⟨S262144x256, .f32⟩ : BufTy).Contents (Elt F) → (⟨S262144x256, .f32⟩ : BufTy).Contents (Elt F)),
    StableHlo.unary main_arg2 main_v18 (broadcastInDim S262144x256 ![0, 1] bcast_S1x256_S262144x256_0_1 : (⟨S1x256, .f32⟩ : BufTy).Contents (Elt F) → (⟨S262144x256, .f32⟩ : BufTy).Contents (Elt F)),
    StableHlo.binary main_v17 main_v18 main_v19 (mulf : (⟨S262144x256, .f32⟩ : BufTy).Contents (Elt F) → (⟨S262144x256, .f32⟩ : BufTy).Contents (Elt F) → (⟨S262144x256, .f32⟩ : BufTy).Contents (Elt F)),
    StableHlo.unary main_arg3 main_v20 (broadcastInDim S262144x256 ![0, 1] bcast_S1x256_S262144x256_0_1 : (⟨S1x256, .f32⟩ : BufTy).Contents (Elt F) → (⟨S262144x256, .f32⟩ : BufTy).Contents (Elt F)),
    StableHlo.binary main_v19 main_v20 main_v21 (addf : (⟨S262144x256, .f32⟩ : BufTy).Contents (Elt F) → (⟨S262144x256, .f32⟩ : BufTy).Contents (Elt F) → (⟨S262144x256, .f32⟩ : BufTy).Contents (Elt F)),
    StableHlo.nullary main_cst_4 (constant S_ .f32 0x3C23D70A#32),
    TRef.nullary main_call0.cst (constant S_ .f32 0x00000000#32),
    TRef.unary main_call0.cst main_call0.v0 (broadcastInDim S262144x256 ![] bcast_S_S262144x256),
    TRef.binary (.of main_v21 : TRef sig ⟨S262144x256, .f32⟩) main_call0.v0 main_call0.v1 (cmpf .oge),
    TRef.unary (.of main_cst_4 : TRef sig ⟨S_, .f32⟩) main_call0.v2 id,
    TRef.unary main_call0.v2 main_call0.v3 (broadcastInDim S262144x256 ![] bcast_S_S262144x256),
    TRef.binary main_call0.v3 (.of main_v21 : TRef sig ⟨S262144x256, .f32⟩) main_call0.v4 mulf,
    TRef.ternary main_call0.v1 (.of main_v21 : TRef sig ⟨S262144x256, .f32⟩) main_call0.v4 main_call0.call0.v0 select,
    StableHlo.unary main_arg4 main_v23 ((transpose S256x512 [1, 0] · transposes_S512x256_S256x512_1_0) : (⟨S512x256, .f32⟩ : BufTy).Contents (Elt F) → (⟨S256x512, .f32⟩ : BufTy).Contents (Elt F)),
    StableHlo.binary main_v22 main_v23 main_v24 ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)),
    StableHlo.unary main_arg5 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S262144x512 ![0, 1] bcast_S1x512_S262144x512_0_1 : (⟨S1x512, .f32⟩ : BufTy).Contents (Elt F) → (⟨S262144x512, .f32⟩ : BufTy).Contents (Elt F)),
    StableHlo.binary main_v24 main_v26 main_v27 (addf : (⟨S262144x512, .f32⟩ : BufTy).Contents (Elt F) → (⟨S262144x512, .f32⟩ : BufTy).Contents (Elt F) → (⟨S262144x512, .f32⟩ : BufTy).Contents (Elt F)),
    StableHlo.nullary main_cst_5 (constant S_ .f32 0x00000000#32),
    StableHlo.binary main_v27 main_cst_5 main_v28 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v28 main_v29 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x44000000#32),
    StableHlo.unary main_cst_6 main_v30 (broadcastInDim S262144x1 ![] bcast_S_S262144x1 : (⟨S_, .f32⟩ : BufTy).Contents (Elt F) → (⟨S262144x1, .f32⟩ : BufTy).Contents (Elt F)),
    StableHlo.binary main_v29 main_v30 main_v31 (Host.divf : (⟨S262144x1, .f32⟩ : BufTy).Contents (Elt F) → (⟨S262144x1, .f32⟩ : BufTy).Contents (Elt F) → (⟨S262144x1, .f32⟩ : BufTy).Contents (Elt F)),
    StableHlo.unary main_v31 main_v32 (broadcastInDim S262144x512 ![0, 1] bcast_S262144x1_S262144x512_0_1 : (⟨S262144x1, .f32⟩ : BufTy).Contents (Elt F) → (⟨S262144x512, .f32⟩ : BufTy).Contents (Elt F)),
    StableHlo.binary main_v27 main_v32 main_v33 (subf : (⟨S262144x512, .f32⟩ : BufTy).Contents (Elt F) → (⟨S262144x512, .f32⟩ : BufTy).Contents (Elt F) → (⟨S262144x512, .f32⟩ : BufTy).Contents (Elt F)),
    StableHlo.binary main_v33 main_v33 main_v34 (mulf : (⟨S262144x512, .f32⟩ : BufTy).Contents (Elt F) → (⟨S262144x512, .f32⟩ : BufTy).Contents (Elt F) → (⟨S262144x512, .f32⟩ : BufTy).Contents (Elt F)),
    StableHlo.nullary main_cst_7 (constant S_ .f32 0x00000000#32),
    StableHlo.binary main_v34 main_cst_7 main_v35 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v35 main_v36 (broadcastInDim S262144x1 ![0] bcast_S262144_S262144x1_0 : (⟨S262144, .f32⟩ : BufTy).Contents (Elt F) → (⟨S262144x1, .f32⟩ : BufTy).Contents (Elt F)),
    StableHlo.nullary main_cst_8 (constant S_ .f32 0x44000000#32),
    StableHlo.unary main_cst_8 main_v37 (broadcastInDim S262144x1 ![] bcast_S_S262144x1 : (⟨S_, .f32⟩ : BufTy).Contents (Elt F) → (⟨S262144x1, .f32⟩ : BufTy).Contents (Elt F)),
    StableHlo.binary main_v36 main_v37 main_v38 (Host.divf : (⟨S262144x1, .f32⟩ : BufTy).Contents (Elt F) → (⟨S262144x1, .f32⟩ : BufTy).Contents (Elt F) → (⟨S262144x1, .f32⟩ : BufTy).Contents (Elt F)),
    StableHlo.unary main_v31 main_v39 (broadcastInDim S262144x512 ![0, 1] bcast_S262144x1_S262144x512_0_1 : (⟨S262144x1, .f32⟩ : BufTy).Contents (Elt F) → (⟨S262144x512, .f32⟩ : BufTy).Contents (Elt F)),
    StableHlo.binary main_v27 main_v39 main_v40 (subf : (⟨S262144x512, .f32⟩ : BufTy).Contents (Elt F) → (⟨S262144x512, .f32⟩ : BufTy).Contents (Elt F) → (⟨S262144x512, .f32⟩ : BufTy).Contents (Elt F)),
    StableHlo.nullary main_cst_9 (constant S_ .f32 0x3727C5AC#32),
    StableHlo.unary main_cst_9 main_v41 (broadcastInDim S262144x1 ![] bcast_S_S262144x1 : (⟨S_, .f32⟩ : BufTy).Contents (Elt F) → (⟨S262144x1, .f32⟩ : BufTy).Contents (Elt F)),
    StableHlo.binary main_v38 main_v41 main_v42 (addf : (⟨S262144x1, .f32⟩ : BufTy).Contents (Elt F) → (⟨S262144x1, .f32⟩ : BufTy).Contents (Elt F) → (⟨S262144x1, .f32⟩ : BufTy).Contents (Elt F)),
    StableHlo.unary main_v42 main_v43 (Host.sqrt : (⟨S262144x1, .f32⟩ : BufTy).Contents (Elt F) → (⟨S262144x1, .f32⟩ : BufTy).Contents (Elt F)),
    StableHlo.unary main_v43 main_v44 (broadcastInDim S262144x512 ![0, 1] bcast_S262144x1_S262144x512_0_1 : (⟨S262144x1, .f32⟩ : BufTy).Contents (Elt F) → (⟨S262144x512, .f32⟩ : BufTy).Contents (Elt F)),
    StableHlo.binary main_v40 main_v44 main_v45 (Host.divf : (⟨S262144x512, .f32⟩ : BufTy).Contents (Elt F) → (⟨S262144x512, .f32⟩ : BufTy).Contents (Elt F) → (⟨S262144x512, .f32⟩ : BufTy).Contents (Elt F)),
    StableHlo.unary main_arg6 main_v46 (broadcastInDim S262144x512 ![0, 1] bcast_S1x512_S262144x512_0_1 : (⟨S1x512, .f32⟩ : BufTy).Contents (Elt F) → (⟨S262144x512, .f32⟩ : BufTy).Contents (Elt F)),
    StableHlo.binary main_v45 main_v46 main_v47 (mulf : (⟨S262144x512, .f32⟩ : BufTy).Contents (Elt F) → (⟨S262144x512, .f32⟩ : BufTy).Contents (Elt F) → (⟨S262144x512, .f32⟩ : BufTy).Contents (Elt F)),
    StableHlo.unary main_arg7 main_v48 (broadcastInDim S262144x512 ![0, 1] bcast_S1x512_S262144x512_0_1 : (⟨S1x512, .f32⟩ : BufTy).Contents (Elt F) → (⟨S262144x512, .f32⟩ : BufTy).Contents (Elt F)),
    StableHlo.binary main_v47 main_v48 main_v49 (addf : (⟨S262144x512, .f32⟩ : BufTy).Contents (Elt F) → (⟨S262144x512, .f32⟩ : BufTy).Contents (Elt F) → (⟨S262144x512, .f32⟩ : BufTy).Contents (Elt F)),
    StableHlo.nullary main_cst_10 (constant S_ .f32 0x3C23D70A#32),
    TRef.nullary main_call1.cst (constant S_ .f32 0x00000000#32),
    TRef.unary main_call1.cst main_call1.v0 (broadcastInDim S262144x512 ![] bcast_S_S262144x512),
    TRef.binary (.of main_v49 : TRef sig ⟨S262144x512, .f32⟩) main_call1.v0 main_call1.v1 (cmpf .oge),
    TRef.unary (.of main_cst_10 : TRef sig ⟨S_, .f32⟩) main_call1.v2 id,
    TRef.unary main_call1.v2 main_call1.v3 (broadcastInDim S262144x512 ![] bcast_S_S262144x512),
    TRef.binary main_call1.v3 (.of main_v49 : TRef sig ⟨S262144x512, .f32⟩) main_call1.v4 mulf,
    TRef.ternary main_call1.v1 (.of main_v49 : TRef sig ⟨S262144x512, .f32⟩) main_call1.v4 main_call1.call0.v0 select,
    StableHlo.unary main_arg8 main_v51 ((transpose S512x256 [1, 0] · transposes_S256x512_S512x256_1_0) : (⟨S256x512, .f32⟩ : BufTy).Contents (Elt F) → (⟨S512x256, .f32⟩ : BufTy).Contents (Elt F)),
    StableHlo.binary main_v50 main_v51 main_v52 ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)),
    StableHlo.unary main_arg9 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S262144x256 ![0, 1] bcast_S1x256_S262144x256_0_1 : (⟨S1x256, .f32⟩ : BufTy).Contents (Elt F) → (⟨S262144x256, .f32⟩ : BufTy).Contents (Elt F)),
    StableHlo.binary main_v52 main_v54 main_v55 (addf : (⟨S262144x256, .f32⟩ : BufTy).Contents (Elt F) → (⟨S262144x256, .f32⟩ : BufTy).Contents (Elt F) → (⟨S262144x256, .f32⟩ : BufTy).Contents (Elt F)),
    StableHlo.binary main_v55 main_arg0 main_v56 (addf : (⟨S262144x256, .f32⟩ : BufTy).Contents (Elt F) → (⟨S262144x256, .f32⟩ : BufTy).Contents (Elt F) → (⟨S262144x256, .f32⟩ : BufTy).Contents (Elt F)) ]

-- eighty-one binds re-associated and four function bodies opened at their calls
set_option maxRecDepth 8192 in
set_option maxHeartbeats 4000000 in
/-- @main is that straight line: the two windows in order, the rectifiers' and the selects' definitions unfolded at
    their calls and the records at their fields; both sides are one chain of steps once sequencing is reassociated. -/
theorem main_eq (c : Dev nD) : main (F := F) c = seq ops := by
  simp only [main, main_part0, main_part1, fn_leaky_relu.body, fn_leaky_relu_0.body, fn_where.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    binary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., binary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., binary_bufs_sub .., unary_bufs_sub ..,
    unary_bufs_sub .., binary_bufs_sub .., binary_bufs_sub ..⟩

set_option maxRecDepth 8192 in
set_option maxHeartbeats 8000000 in
/-- The fold at the result buffer is the composed term: each operation's result at its own buffer is its function of
    its operands' contents, at any other buffer what was there; the typed references' transports are the identity at
    these literal references. -/
theorem out_eq (V : Valuation τ sig (Elt F)) :
    after ops V (Proc.devRef .tc main_v56) = RefTerm.out (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

/-! No operation writes an argument's buffer. -/

set_option maxRecDepth 8192 in
set_option maxHeartbeats 4000000 in
theorem arg0_eq (V : Valuation τ sig (Elt F)) :
    after ops V (Proc.devRef .tc main_arg0) = V (Proc.devRef .tc main_arg0) := by
  after_results_simp

set_option maxRecDepth 8192 in
set_option maxHeartbeats 4000000 in
theorem arg1_eq (V : Valuation τ sig (Elt F)) :
    after ops V (Proc.devRef .tc main_arg1) = V (Proc.devRef .tc main_arg1) := by
  after_results_simp

set_option maxRecDepth 8192 in
set_option maxHeartbeats 4000000 in
theorem arg2_eq (V : Valuation τ sig (Elt F)) :
    after ops V (Proc.devRef .tc main_arg2) = V (Proc.devRef .tc main_arg2) := by
  after_results_simp

set_option maxRecDepth 8192 in
set_option maxHeartbeats 4000000 in
theorem arg3_eq (V : Valuation τ sig (Elt F)) :
    after ops V (Proc.devRef .tc main_arg3) = V (Proc.devRef .tc main_arg3) := by
  after_results_simp

set_option maxRecDepth 8192 in
set_option maxHeartbeats 4000000 in
theorem arg4_eq (V : Valuation τ sig (Elt F)) :
    after ops V (Proc.devRef .tc main_arg4) = V (Proc.devRef .tc main_arg4) := by
  after_results_simp

set_option maxRecDepth 8192 in
set_option maxHeartbeats 4000000 in
theorem arg5_eq (V : Valuation τ sig (Elt F)) :
    after ops V (Proc.devRef .tc main_arg5) = V (Proc.devRef .tc main_arg5) := by
  after_results_simp

set_option maxRecDepth 8192 in
set_option maxHeartbeats 4000000 in
theorem arg6_eq (V : Valuation τ sig (Elt F)) :
    after ops V (Proc.devRef .tc main_arg6) = V (Proc.devRef .tc main_arg6) := by
  after_results_simp

set_option maxRecDepth 8192 in
set_option maxHeartbeats 4000000 in
theorem arg7_eq (V : Valuation τ sig (Elt F)) :
    after ops V (Proc.devRef .tc main_arg7) = V (Proc.devRef .tc main_arg7) := by
  after_results_simp

set_option maxRecDepth 8192 in
set_option maxHeartbeats 4000000 in
theorem arg8_eq (V : Valuation τ sig (Elt F)) :
    after ops V (Proc.devRef .tc main_arg8) = V (Proc.devRef .tc main_arg8) := by
  after_results_simp

set_option maxRecDepth 8192 in
set_option maxHeartbeats 4000000 in
theorem arg9_eq (V : Valuation τ sig (Elt F)) :
    after ops V (Proc.devRef .tc main_arg9) = V (Proc.devRef .tc main_arg9) := by
  after_results_simp

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = RefTerm.out (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  exact (θ_run defs _ _).mono (fun _ h c => ⟨(h c main_v56).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefValue.lean ====
/-
  The reference's result term, read at the extended reals, is the row function applied row by row.

  At entry (r, q) every operation of the reference reads its operands at row r only: a row sum is a sum over the
  row, a product with a transposed matrix a sum over the row against a row of the matrix, a broadcast of a
  column or of a parameter row reads that column's or row's entry, everything else is entry by entry. The
  reference divides the centred entry by the root of the variance plus a small number where the row function
  multiplies by the reciprocal root: the radicand is above zero, where the two agree.
-/
import proofs.«179123_j39616778338828_1_alg».proof.Proof.RefTerm
import proofs.«179123_j39616778338828_1_alg».proof.Proof.Spec
import proofs.«179123_j39616778338828_1_alg».proof.Proof.LibPlainDot
import Idealize.ShloMosaic.Lib.Pipeline.Value
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-! ## Layout operations at an entry -/

section layout
variable {α : Type} {R C : ℕ}

/-- A vector made a column reads, at (r, 0), the vector at r. -/
theorem col_apply (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ ![0] h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column repeated along the rows reads, at (r, k), the column at (r, 0). -/
theorem colbc_apply (v : (⟨2, ![R, 1]⟩ : Shape).Idx → α)
    (h : (⟨2, ![R, 1]⟩ : Shape).BroadcastsInDim ⟨2, ![R, C]⟩ (![0, 1] : Fin 2 → Fin 2)) (r : Fin R) (k : Fin C) :
    broadcastInDim ⟨2, ![R, C]⟩ ![0, 1] h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

/-- One row repeated over many reads, at (r, k), the row at (0, k). -/
theorem rowbc_apply (w : (⟨2, ![1, C]⟩ : Shape).Idx → α)
    (h : (⟨2, ![1, C]⟩ : Shape).BroadcastsInDim ⟨2, ![R, C]⟩ (![0, 1] : Fin 2 → Fin 2)) (r : Fin R) (k : Fin C) :
    broadcastInDim ⟨2, ![R, C]⟩ ![0, 1] h w (ix2 r k) = w (ix2 (0 : Fin 1) k) := by
  refine broadcastInDim_apply _ h w (ix2 r k) (ix2 (0 : Fin 1) k) fun a => ?_
  match a with
  | ⟨0, _⟩ => rfl
  | ⟨1, _⟩ =>
    show k.val = if C = 1 then 0 else k.val
    split
    · have := k.isLt; omega
    · rfl

/-- A vector made a row reads, at (0, k), the vector at k. -/
theorem vecrow_apply (b : (⟨1, ![C]⟩ : Shape).Idx → α)
    (h : (⟨1, ![C]⟩ : Shape).BroadcastsInDim ⟨2, ![1, C]⟩ (![1] : Fin 1 → Fin 2)) (u : Fin 1) (k : Fin C) :
    broadcastInDim ⟨2, ![1, C]⟩ ![1] h b (ix2 u k) = b (ix1 k) := by
  refine broadcastInDim_apply _ h b (ix2 u k) (ix1 k) fun a => ?_
  match a with
  | ⟨0, _⟩ =>
    show k.val = if C = 1 then 0 else k.val
    split
    · have := k.isLt; omega
    · rfl

/-- The host's sum of a matrix along its rows, from the word of zero, at row r: the sum of the row's entries. -/
theorem hostRowSum_apply (x : FVec Ideal (⟨2, ![R, C]⟩ : Shape) .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (r : Fin R) :
    Host.reduceAdd x (constant (F := Ideal) ⟨0, ![]⟩ .f32 0x00000000#32) h' hu (ix1 r) = ∑ k : Fin C, (x (ix2 r k) : EReal) := by
  refine (hostReduceAdd_apply x _ h' hu (ix1 r)).trans ?_
  refine (Ideal.hostReduceAdd_single h' h x _ (ix1 r)).trans ?_
  rw [constant_apply, Ideal.ofBits_zero_f32, zero_add]
  refine Finset.sum_congr rfl fun k _ => congrArg x ?_
  funext a
  exact Fin.ext (by match a with | ⟨0, _⟩ => rfl | ⟨1, _⟩ => rfl)

end layout

/-- The host's root at an entry is the root of the entry. -/
theorem hostSqrt_apply {s : Shape} {φ : FTy} (a : FVec Ideal s φ) (i : s.Idx) : Host.sqrt a i = Ideal.sqrt (a i) := rfl

/-! ## Rows of 256 -/

theorem sum256_apply (x : FVec Ideal S262144x256 .f32) (r : Fin 262144) :
    RefTerm.sum256 x (ix1 r) = ∑ k : Fin 256, (x (ix2 r k) : EReal) :=
  hostRowSum_apply x _ (by decide) _ r

theorem mean256_apply (x : FVec Ideal S262144x256 .f32) (r : Fin 262144) (u : Fin 1) :
    RefTerm.mean256 x (ix2 r u) = Cert.Spec.rowMean Cert.Spec.n256 (fun k => x (ix2 r k)) := by
  unfold RefTerm.mean256 Cert.Spec.rowMean Cert.Spec.n256
  refine (hostDivf_apply _ _ _).trans ?_
  rw [col_apply, broadcastInDim_scalar_apply, constant_apply, sum256_apply]

theorem ctr256_apply (x : FVec Ideal S262144x256 .f32) (r : Fin 262144) (k : Fin 256) :
    RefTerm.ctr256 x (ix2 r k) = x (ix2 r k) - Cert.Spec.rowMean Cert.Spec.n256 (fun k => x (ix2 r k)) := by
  unfold RefTerm.ctr256
  refine (subf_apply _ _ _).trans ?_
  rw [colbc_apply, mean256_apply]

theorem var256_apply (x : FVec Ideal S262144x256 .f32) (r : Fin 262144) (u : Fin 1) :
    RefTerm.var256 x (ix2 r u) = Cert.Spec.rowVar Cert.Spec.n256 (fun k => x (ix2 r k)) := by
  unfold RefTerm.var256 Cert.Spec.rowVar
  refine (hostDivf_apply _ _ _).trans ?_
  rw [col_apply, broadcastInDim_scalar_apply, constant_apply, sum256_apply]
  refine congrArg₂ Ideal.div (Finset.sum_congr rfl fun k _ => ?_) rfl
  rw [mulf_apply, ctr256_apply]

theorem ln256_apply (x : FVec Ideal S262144x256 .f32) (w b : FVec Ideal S1x256 .f32) (r : Fin 262144) (k : Fin 256) :
    RefTerm.ln256 x w b (ix2 r k)
      = Cert.Spec.lnMul Cert.Spec.n256 (fun k => x (ix2 r k)) (fun k => w (ix2 (0 : Fin 1) k)) (fun k => b (ix2 (0 : Fin 1) k)) k := by
  rw [← Cert.Spec.lnDiv_eq_lnMul Cert.Spec.n256_pos]
  unfold RefTerm.ln256 Cert.Spec.lnDiv
  refine (addf_apply _ _ _).trans ?_
  rw [mulf_apply, hostDivf_apply, ctr256_apply, colbc_apply, rowbc_apply, rowbc_apply, hostSqrt_apply, addf_apply,
    var256_apply, broadcastInDim_scalar_apply, constant_apply]
  rfl

theorem lrelu256_apply (h : FVec Ideal S262144x256 .f32) (r : Fin 262144) (k : Fin 256) :
    RefTerm.lrelu256 h (ix2 r k) = Cert.Spec.lrelu (h (ix2 r k)) := rfl

theorem lin512_apply (h : FVec Ideal S262144x256 .f32) (We : FVec Ideal S512x256 .f32) (be : FVec Ideal S512 .f32)
    (r : Fin 262144) (n : Fin 512) :
    RefTerm.lin512 h We be (ix2 r n) = (∑ k : Fin 256, (h (ix2 r k) : EReal) * We (ix2 n k)) + be (ix1 n) := by
  unfold RefTerm.lin512
  refine (addf_apply _ _ _).trans ?_
  rw [rowbc_apply, vecrow_apply]
  refine congrArg (· + be (ix1 n)) ?_
  refine (PlainDot.dotGeneral_apply _ rfl rfl rfl rfl rfl rfl none _ h _ r n).trans ?_
  refine Finset.sum_congr rfl fun k _ => ?_
  rw [transpose_ix2_apply]

/-! ## Rows of 512 -/

theorem sum512_apply (x : FVec Ideal S262144x512 .f32) (r : Fin 262144) :
    RefTerm.sum512 x (ix1 r) = ∑ k : Fin 512, (x (ix2 r k) : EReal) :=
  hostRowSum_apply x _ (by decide) _ r

theorem mean512_apply (x : FVec Ideal S262144x512 .f32) (r : Fin 262144) (u : Fin 1) :
    RefTerm.mean512 x (ix2 r u) = Cert.Spec.rowMean Cert.Spec.n512 (fun k => x (ix2 r k)) := by
  unfold RefTerm.mean512 Cert.Spec.rowMean Cert.Spec.n512
  refine (hostDivf_apply _ _ _).trans ?_
  rw [col_apply, broadcastInDim_scalar_apply, constant_apply, sum512_apply]

theorem ctr512_apply (x : FVec Ideal S262144x512 .f32) (r : Fin 262144) (k : Fin 512) :
    RefTerm.ctr512 x (ix2 r k) = x (ix2 r k) - Cert.Spec.rowMean Cert.Spec.n512 (fun k => x (ix2 r k)) := by
  unfold RefTerm.ctr512
  refine (subf_apply _ _ _).trans ?_
  rw [colbc_apply, mean512_apply]

theorem var512_apply (x : FVec Ideal S262144x512 .f32) (r : Fin 262144) (u : Fin 1) :
    RefTerm.var512 x (ix2 r u) = Cert.Spec.rowVar Cert.Spec.n512 (fun k => x (ix2 r k)) := by
  unfold RefTerm.var512 Cert.Spec.rowVar
  refine (hostDivf_apply _ _ _).trans ?_
  rw [col_apply, broadcastInDim_scalar_apply, constant_apply, sum512_apply]
  refine congrArg₂ Ideal.div (Finset.sum_congr rfl fun k _ => ?_) rfl
  rw [mulf_apply, ctr512_apply]

theorem ln512_apply (x : FVec Ideal S262144x512 .f32) (w b : FVec Ideal S1x512 .f32) (r : Fin 262144) (k : Fin 512) :
    RefTerm.ln512 x w b (ix2 r k)
      = Cert.Spec.lnMul Cert.Spec.n512 (fun k => x (ix2 r k)) (fun k => w (ix2 (0 : Fin 1) k)) (fun k => b (ix2 (0 : Fin 1) k)) k := by
  rw [← Cert.Spec.lnDiv_eq_lnMul Cert.Spec.n512_pos]
  unfold RefTerm.ln512 Cert.Spec.lnDiv
  refine (addf_apply _ _ _).trans ?_
  rw [mulf_apply, hostDivf_apply, ctr512_apply, colbc_apply, rowbc_apply, rowbc_apply, hostSqrt_apply, addf_apply,
    var512_apply, broadcastInDim_scalar_apply, constant_apply]
  rfl

theorem lrelu512_apply (h : FVec Ideal S262144x512 .f32) (r : Fin 262144) (k : Fin 512) :
    RefTerm.lrelu512 h (ix2 r k) = Cert.Spec.lrelu (h (ix2 r k)) := rfl

theorem lin256_apply (h : FVec Ideal S262144x512 .f32) (Ws : FVec Ideal S256x512 .f32) (bs : FVec Ideal S256 .f32)
    (r : Fin 262144) (q : Fin 256) :
    RefTerm.lin256 h Ws bs (ix2 r q) = (∑ n : Fin 512, (h (ix2 r n) : EReal) * Ws (ix2 q n)) + bs (ix1 q) := by
  unfold RefTerm.lin256
  refine (addf_apply _ _ _).trans ?_
  rw [rowbc_apply, vecrow_apply]
  refine congrArg (· + bs (ix1 q)) ?_
  refine (PlainDot.dotGeneral_apply _ rfl rfl rfl rfl rfl rfl none _ h _ r q).trans ?_
  refine Finset.sum_congr rfl fun n _ => ?_
  rw [transpose_ix2_apply]

/-! ## The whole result -/

/-- The first linear layer of the rectified, normalised input, at row r: the row function's hidden layer. -/
theorem hid_apply (x : FVec Ideal S262144x256 .f32) (w1 b1 : FVec Ideal S1x256 .f32) (We : FVec Ideal S512x256 .f32)
    (be : FVec Ideal S512 .f32) (r : Fin 262144) :
    (fun n : Fin 512 => RefTerm.lin512 (RefTerm.lrelu256 (RefTerm.ln256 x w1 b1)) We be (ix2 r n))
      = Cert.Spec.hid (fun k => x (ix2 r k)) (fun k => w1 (ix2 (0 : Fin 1) k)) (fun k => b1 (ix2 (0 : Fin 1) k))
          (fun n k => We (ix2 n k)) (fun n => be (ix1 n)) := by
  funext n
  rw [lin512_apply]
  unfold Cert.Spec.hid
  refine congrArg (· + be (ix1 n)) (Finset.sum_congr rfl fun k _ => ?_)
  rw [lrelu256_apply, ln256_apply]

/-- The reference's result is the row function, row by row. -/
theorem out_eq (x : FVec Ideal S262144x256 .f32) (w1 b1 : FVec Ideal S1x256 .f32) (We : FVec Ideal S512x256 .f32)
    (be : FVec Ideal S512 .f32) (w2 b2 : FVec Ideal S1x512 .f32) (Ws : FVec Ideal S256x512 .f32) (bs : FVec Ideal S256 .f32) :
    RefTerm.out (F := Ideal) x w1 b1 We be w2 b2 Ws bs = Cert.Spec.G x w1 b1 We be w2 b2 Ws bs := by
  funext i
  obtain ⟨r, q, rfl⟩ : ∃ (r : Fin 262144) (q : Fin 256), i = ix2 r q := ⟨i 0, i 1, eq_ix2 i⟩
  rw [Cert.Spec.G_apply]
  unfold RefTerm.out Cert.Spec.rowOut
  refine (addf_apply _ _ _).trans ?_
  rw [lin256_apply]
  refine congrArg (· + x (ix2 r q)) (congrArg (· + bs (ix1 q)) (Finset.sum_congr rfl fun n _ => ?_))
  rw [lrelu512_apply, ln512_apply, hid_apply]

end Cert.ReferenceIdeal.RefValue

end
-- ==== Proof.lean ====
/-
  The certificate of a residual block of two normalised, rectified linear layers, computed by one kernel over
  bands of 2048 rows, against the same block computed array by array.

  Both programs apply ONE function to every row of the input: normalise the row (subtract its mean, scale by the
  inverse root of its variance plus a small positive number), scale and shift it, rectify it with a leak, map it
  through the first matrix and shift; do the same to the 512 resulting entries with the second matrix; add the
  row back. The kernel multiplies by the reciprocal root where the reference divides by the root: on the extended
  reals these agree whenever the radicand is above zero, and a mean of squares plus a positive number always is,
  so the two results are equal at every input, finite or not. The changes of float format around the matrix
  products are the identity on the extended reals, and a product into a zero accumulator and a contraction on
  the host are the same sum.

  The kernel's frames are the launch of the body at the 128 grid points; its result array is assembled from the
  128 blocks the points write back. The reference's frame is its run as a straight line of host operations.
  The idealisation rewrote nothing, so there is nothing to preserve.
-/
import proofs.«179123_j39616778338828_1_alg».proof.Defs
import proofs.«179123_j39616778338828_1_alg».proof.Proof.Gen.Kernel
import proofs.«179123_j39616778338828_1_alg».proof.Proof.Gen.Kernel.Skeleton
import proofs.«179123_j39616778338828_1_alg».proof.Proof.Gen.Kernel.Launch
import proofs.«179123_j39616778338828_1_alg».proof.Proof.Gen.Kernel.Points
import proofs.«179123_j39616778338828_1_alg».proof.Proof.Gen.Kernel.Frame
import proofs.«179123_j39616778338828_1_alg».proof.Proof.Gen.KernelIdeal
import proofs.«179123_j39616778338828_1_alg».proof.Proof.Gen.KernelIdeal.Skeleton
import proofs.«179123_j39616778338828_1_alg».proof.Proof.Gen.KernelIdeal.Launch
import proofs.«179123_j39616778338828_1_alg».proof.Proof.Gen.KernelIdeal.Points
import proofs.«179123_j39616778338828_1_alg».proof.Proof.Gen.KernelIdeal.Frame
import proofs.«179123_j39616778338828_1_alg».proof.Proof.Gen.KernelIdeal.Value
import proofs.«179123_j39616778338828_1_alg».proof.Proof.Gen.ReferenceIdeal
import proofs.«179123_j39616778338828_1_alg».proof.Proof.Gen.Pre_finite_inputs
import proofs.«179123_j39616778338828_1_alg».proof.Proof.KerValue
import proofs.«179123_j39616778338828_1_alg».proof.Proof.RefRun
import proofs.«179123_j39616778338828_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From arguments that agree, the kernel's result array and the reference's are the row function applied row by
    row to the same arrays. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, _, h2, h3, h4, h5, h6, h7, h8, h9⟩ := hagree c
  rw [Cert.ReferenceIdeal.RefValue.out_eq, h0, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
